-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x7168 : Shape := ⟨2, ![2048, 7168]⟩
abbrev S7168 : Shape := ⟨1, ![7168]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x7168 : S_.BroadcastsInDim S2048x7168 (![] : Fin 0 → Fin S2048x7168.rank)
  reducesTo_S2048x7168_S_d0_1 : S2048x7168.ReducesTo [0, 1] S_
  bcast_S_S7168 : S_.BroadcastsInDim S7168 (![] : Fin 0 → Fin S7168.rank)
  reducesTo_S7168_S_d0 : S7168.ReducesTo [0] S_

variable [Facts]

def fn_part1 {F : FTy → Type} [FloatOps F] (main_arg4 : FVec F S2048x7168 .f32) (main_arg5 : FVec F S7168 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S2048x7168 .f32 := Host.absf main_arg4
  let main_cst_6 : FVec F S_ .f32 := constant S_ .f32 0x7F800000#32
  let main_v20 : FVec F S2048x7168 .f32 := broadcastInDim S2048x7168 ![] bcast_S_S2048x7168 main_cst_6
  let main_v21 : IVec S2048x7168 1 := cmpf .olt main_v19 main_v20
  let main_c_7 : IVec S_ 1 := constantI S_ 1 1#1
  let main_v22 : IVec S_ 1 := (fun x v => Host.reduce IntOp.andi x v reducesTo_S2048x7168_S_d0_1 h_S_) main_v21 main_c_7
  let main_v23 : IVec S_ 1 := andi main_v18 main_v22
  let main_v24 : FVec F S7168 .f32 := Host.absf main_arg5
  let main_cst_8 : FVec F S_ .f32 := constant S_ .f32 0x7F800000#32
  let main_v25 : FVec F S7168 .f32 := broadcastInDim S7168 ![] bcast_S_S7168 main_cst_8
  let main_v26 : IVec S7168 1 := cmpf .olt main_v24 main_v25
  let main_c_9 : IVec S_ 1 := constantI S_ 1 1#1
  let main_v27 : IVec S_ 1 := (fun x v => Host.reduce IntOp.andi x v reducesTo_S7168_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S2048x7168 .f32) (main_arg5 : FVec F S7168 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_v13 main_v16
-- ==== Kernel.lean ====
abbrev S8192x1024 : Shape := ⟨2, ![8192, 1024]⟩
abbrev S2048x7168 : Shape := ⟨2, ![2048, 7168]⟩
abbrev S7168 : Shape := ⟨1, ![7168]⟩
abbrev S2048x7x4x256 : Shape := ⟨4, ![2048, 7, 4, 256]⟩
abbrev S4x2048x7x256 : Shape := ⟨4, ![4, 2048, 7, 256]⟩
abbrev S4x2048x1792 : Shape := ⟨3, ![4, 2048, 1792]⟩
abbrev S7x4x256 : Shape := ⟨3, ![7, 4, 256]⟩
abbrev S4x7x256 : Shape := ⟨3, ![4, 7, 256]⟩
abbrev S4x1x1792 : Shape := ⟨3, ![4, 1, 1792]⟩
abbrev S512x1024 : Shape := ⟨2, ![512, 1024]⟩
abbrev S512x256 : Shape := ⟨2, ![512, 256]⟩
abbrev S1x2048x1792 : Shape := ⟨3, ![1, 2048, 1792]⟩
abbrev S1x1x1792 : Shape := ⟨3, ![1, 1, 1792]⟩
abbrev S1x1024x1792 : Shape := ⟨3, ![1, 1024, 1792]⟩
abbrev S1024x1792 : Shape := ⟨2, ![1024, 1792]⟩
abbrev S512x1792 : Shape := ⟨2, ![512, 1792]⟩
abbrev S1x1792 : Shape := ⟨2, ![1, 1792]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S2048x7168, .f32⟩
  | .hbm, ⟨5, _⟩ => ⟨S7168, .f32⟩
  | .hbm, ⟨6, _⟩ => ⟨S2048x7x4x256, .f32⟩
  | .hbm, ⟨7, _⟩ => ⟨S4x2048x7x256, .f32⟩
  | .hbm, ⟨8, _⟩ => ⟨S4x2048x1792, .f32⟩
  | .hbm, ⟨9, _⟩ => ⟨S4x2048x1792, .bf16⟩
  | .hbm, ⟨10, _⟩ => ⟨S7x4x256, .f32⟩
  | .hbm, ⟨11, _⟩ => ⟨S4x7x256, .f32⟩
  | .hbm, ⟨12, _⟩ => ⟨S4x1x1792, .f32⟩
  | .hbm, ⟨13, _⟩ => ⟨S8192x1024, .bf16⟩
  | .hbm, ⟨14, _⟩ => ⟨S8192x1024, .bf16⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x2048x1792, .bf16⟩
  | .local _ .vmem, ⟨9, _⟩ => ⟨S1x2048x1792, .bf16⟩
  | .local _ .vmem, ⟨10, _⟩ => ⟨S1x1x1792, .f32⟩
  | .local _ .vmem, ⟨11, _⟩ => ⟨S1x1x1792, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S2048x7168_S2048x7x4x256 : S2048x7168.ShapeCasts S2048x7x4x256
  transposes_S2048x7x4x256_S4x2048x7x256_2_0_1_3 : S2048x7x4x256.Transposes [2, 0, 1, 3] S4x2048x7x256
  shapeCasts_S4x2048x7x256_S4x2048x1792 : S4x2048x7x256.ShapeCasts S4x2048x1792
  bitsLt_bf16_f32 : FTy.bits .bf16 < FTy.bits .f32
  shapeCasts_S7168_S7x4x256 : S7168.ShapeCasts S7x4x256
  transposes_S7x4x256_S4x7x256_1_0_2 : S7x4x256.Transposes [1, 0, 2] S4x7x256
  shapeCasts_S4x7x256_S4x1x1792 : S4x7x256.ShapeCasts S4x1x1792
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x2048x1792_S1x1024x1792_0_0_0 : ∀ a, (![0, 0, 0] : Fin 3 → Nat) a + S1x1024x1792.size a ≤ S1x2048x1792.size a
  h_S1x1024x1792 : 0 < S1x1024x1792.numel
  shapeCasts_S1x1024x1792_S1024x1792 : S1x1024x1792.ShapeCasts S1024x1792
  inb_S1x2048x1792_S1x1024x1792_0_1024_0 : ∀ a, (![0, 1024, 0] : Fin 3 → Nat) a + S1x1024x1792.size a ≤ S1x2048x1792.size a
  inb_S1x1x1792_S1x1x1792_0_0_0 : ∀ a, (![0, 0, 0] : Fin 3 → Nat) a + S1x1x1792.size a ≤ S1x1x1792.size a
  h_S1x1x1792 : 0 < S1x1x1792.numel
  shapeCasts_S1x1x1792_S1x1792 : S1x1x1792.ShapeCasts S1x1792
  broadcasts_S1x1792_S512x1792 : S1x1792.Broadcasts S512x1792
  slices_S512x1792_o0_0_S512x256 : S512x1792.Slices ![0, 0] S512x256
  slices_S512x1792_o0_256_S512x256 : S512x1792.Slices ![0, 256] S512x256
  slices_S512x1792_o0_512_S512x256 : S512x1792.Slices ![0, 512] S512x256
  slices_S512x1792_o0_768_S512x256 : S512x1792.Slices ![0, 768] S512x256
  slices_S512x1792_o0_1024_S512x256 : S512x1792.Slices ![0, 1024] S512x256
  slices_S512x1792_o0_1280_S512x256 : S512x1792.Slices ![0, 1280] S512x256
  slices_S512x1792_o0_1536_S512x256 : S512x1792.Slices ![0, 1536] S512x256
  inb_S512x256_S512x256_0_0 : ∀ a, (![0, 0] : Fin 2 → Nat) a + S512x256.size a ≤ S512x256.size a
  h_S512x256 : 0 < S512x256.numel
  dot_S512x1024_S1024x1792_S512x1792_1_0_0_1_n_n_wf : DotDims.WF S512x1024 S1024x1792 S512x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x1024.size a
  hwx0_2 : ∀ i : grid0.Coords, EltTy.bits .f32 = 32 ∨ (Rect.block (s := S8192x1024) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x1024.size a
  hwx0_3 : ∀ i : grid0.Coords, EltTy.bits .f32 = 32 ∨ (Rect.block (s := S8192x1024) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1792.size a ≤ S4x2048x1792.size a
  hwx0_4 : ∀ i : grid0.Coords, EltTy.bits .bf16 = 32 ∨ (Rect.block (s := S4x2048x1792) S1x2048x1792.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1792.size a ≤ S4x1x1792.size a
  hwx0_5 : ∀ i : grid0.Coords, EltTy.bits .f32 = 32 ∨ (Rect.block (s := S4x1x1792) S1x1x1792.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x1024.size a
  hwx0_6 : ∀ i : grid0.Coords, EltTy.bits .f32 = 32 ∨ (Rect.block (s := S8192x1024) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x1024.size a
  hwx0_7 : ∀ i : grid0.Coords, EltTy.bits .f32 = 32 ∨ (Rect.block (s := S8192x1024) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x1024.size a
  hwx0_8 : ∀ i : grid0.Coords, EltTy.bits .f32 = 32 ∨ (Rect.block (s := S8192x1024) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S8192x1024.size a
  hwx0_9 : ∀ i : grid0.Coords, EltTy.bits .f32 = 32 ∨ (Rect.block (s := S8192x1024) S512x256.size (cc0_transform_9 i) (hinb0_9 i)).WholeWords (EltTy.packing .f32)

variable [Facts₀]

def dot_S512x1024_S1024x1792_S512x1792_1_0_0_1_n_n : DotDims S512x1024 S1024x1792 S512x1792 where
  lhsContracting := [1]
  rhsContracting := [0]
  lhsNonContracting := [0]
  rhsNonContracting := [1]
  lhsBatch := []
  rhsBatch := []
  wf := dot_S512x1024_S1024x1792_S512x1792_1_0_0_1_n_n_wf

abbrev win0_0 : Pipeline.Window sig grid0 :=
  Pipeline.Window.ofSpec (Memref.whole main_v7) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048x1792.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1x1792.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_3) S512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x7168 : Shape := ⟨2, ![2048, 7168]⟩
abbrev S7168 : Shape := ⟨1, ![7168]⟩
abbrev S8192x2048 : Shape := ⟨2, ![8192, 2048]⟩
abbrev S8192x7168 : Shape := ⟨2, ![8192, 7168]⟩
abbrev S1x7168 : Shape := ⟨2, ![1, 7168]⟩
abbrev S_ : Shape := ⟨0, ![]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S2048x7168, .f32⟩
  | .hbm, ⟨5, _⟩ => ⟨S7168, .f32⟩
  | .hbm, ⟨6, _⟩ => ⟨S8192x2048, .f32⟩
  | .hbm, ⟨7, _⟩ => ⟨S8192x7168, .f32⟩
  | .hbm, ⟨8, _⟩ => ⟨S1x7168, .f32⟩
  | .hbm, ⟨9, _⟩ => ⟨S8192x7168, .f32⟩
  | .hbm, ⟨10, _⟩ => ⟨S8192x7168, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .i1⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v58 : Ref sig .tc := ⟨.hbm, 91, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S7168_S1x7168_1 : S7168.BroadcastsInDim S1x7168 (![1] : Fin 1 → Fin S1x7168.rank)
  bcast_S1x7168_S8192x7168_0_1 : S1x7168.BroadcastsInDim S8192x7168 (![0, 1] : Fin 2 → Fin S8192x7168.rank)
  slices_S8192x7168_S8192x1024_0_0 : S8192x7168.Slices ![0, 0] S8192x1024
  slices_S8192x7168_S8192x1024_0_1024 : S8192x7168.Slices ![0, 1024] S8192x1024
  slices_S8192x7168_S8192x1024_0_2048 : S8192x7168.Slices ![0, 2048] S8192x1024
  slices_S8192x7168_S8192x1024_0_3072 : S8192x7168.Slices ![0, 3072] S8192x1024
  slices_S8192x7168_S8192x1024_0_4096 : S8192x7168.Slices ![0, 4096] S8192x1024
  slices_S8192x7168_S8192x1024_0_5120 : S8192x7168.Slices ![0, 5120] S8192x1024
  slices_S8192x7168_S8192x1024_0_6144 : S8192x7168.Slices ![0, 6144] S8192x1024
  bcast_S_S8192x1024 : S_.BroadcastsInDim S8192x1024 (![] : Fin 0 → Fin S8192x1024.rank)
  dot_S8192x2048_S2048x7168_S8192x7168_1_0_0_1_n_n_wf : DotDims.WF S8192x2048 S2048x7168 S8192x7168 [1] [0] [0] [1] [] []

variable [Facts₀]

def dot_S8192x2048_S2048x7168_S8192x7168_1_0_0_1_n_n : DotDims S8192x2048 S2048x7168 S8192x7168 where
  lhsContracting := [1]
  rhsContracting := [0]
  lhsNonContracting := [0]
  rhsNonContracting := [1]
  lhsBatch := []
  rhsBatch := []
  wf := dot_S8192x2048_S2048x7168_S8192x7168_1_0_0_1_n_n_wf

class Facts : Prop extends Facts₀ where

variable [Facts]
-- ==== Proof.GateSpec.lean ====
/-
  The cell update of a seven-gate recurrent layer, stated index by index over the extended reals.

  For batch row `i` and hidden unit `h`, gate `g` (in the order input, input-target, forget, forget-target,
  candidate, output, step) reads column `g * 1024 + h` of the fused pre-activation
      pre i col = (Σ_{k < 1024} input i k * W k col + Σ_{k < 1024} hidden i k * W (1024 + k) col) + b col,
  the row `[input | hidden]` of the joined activations against one column of the weight, plus the bias. The four results are
      c'       = σ(pre_f) * c        + σ(pre_i)  * (2 * σ(pre_z) - 1)
      c_target'= σ(pre_ft) * c_target + σ(pre_it) * (2 * σ(pre_z) - 1)
      o        = σ(pre_o)
      delta    = softplus(pre_d) = max(pre_d, 0) + log(1 + exp(-|pre_d|)).
  Two laws join the two programs to this statement and neither needs a finite argument: a sum over the 2048 joined
  columns is the sum over its first 1024 plus the sum over its last 1024 (addition on the extended reals is
  commutative and associative), and `0 - y = -y`, `x - 0 = x`, `x + 0` unused because the guard `x - 0 ≠ x - 0` of the
  softplus never holds on a linear order.
-/
import Idealize.ShloMosaic.PureOps.Ideal
import Idealize.ShloMosaic.PureOps.Ideal.Laws
import Idealize.ShloMosaic.Lib.ValueIdx

noncomputable section

open scoped BigOperators

namespace Cert.GateSpec

open Idealize.ShloMosaic Idealize.ShloMosaic.ValueIdx

/-- A batch-by-feature array (8192 rows of 1024), the fused weight (2048 rows of 7 * 1024 columns) and the bias. -/
abbrev Act : Type := (⟨2, ![8192, 1024]⟩ : Shape).Idx → EReal
abbrev Wt : Type := (⟨2, ![2048, 7168]⟩ : Shape).Idx → EReal
abbrev Bias : Type := (⟨1, ![7168]⟩ : Shape).Idx → EReal

/-- Gate `g`'s column for hidden unit `h`: the seven gates' segments lie one after the other, 1024 columns each. -/
def gateCol (g : Fin 7) (h : Fin 1024) : Fin 7168 := ⟨g.val * 1024 + h.val, by have := g.isLt; have := h.isLt; omega⟩

/-- The weight's row that meets input feature `k`: the first half of the joined row. -/
def inRow (k : Fin 1024) : Fin 2048 := ⟨k.val, by have := k.isLt; omega⟩
/-- The weight's row that meets hidden feature `k`: the second half of the joined row. -/
def hidRow (k : Fin 1024) : Fin 2048 := ⟨1024 + k.val, by have := k.isLt; omega⟩

/-- The fused pre-activation at batch row `i` and column `col`. -/
def pre (x hd : Act) (W : Wt) (b : Bias) (i : Fin 8192) (col : Fin 7168) : EReal :=
  (∑ k : Fin 1024, x (ix2 i k) * W (ix2 (inRow k) col) + ∑ k : Fin 1024, hd (ix2 i k) * W (ix2 (hidRow k) col)) + b (ix1 col)

/-- Gate `g`'s pre-activation at an index of the result arrays. -/
def gatePre (x hd : Act) (W : Wt) (b : Bias) (g : Fin 7) (j : (⟨2, ![8192, 1024]⟩ : Shape).Idx) : EReal :=
  pre x hd W b (j 0) (gateCol g (j 1))

/-- The candidate, `2 * σ(p) - 1` (a tanh written through the logistic function). -/
def squash (p : EReal) : EReal :=
  Ideal.ofBits .f32 0x40000000#32 * Ideal.logistic p - Ideal.ofBits .f32 0x3F800000#32

/-- One cell's update: the forget gate times the old cell plus the input gate times the candidate. -/
def cellNext (pf pi pz c : EReal) : EReal := Ideal.logistic pf * c + Ideal.logistic pi * squash pz

/-- `softplus x = max x 0 + log (1 + exp (-|x|))`, with `|x| = max x (-x)`. -/
def softplus (x : EReal) : EReal := max x 0 + Ideal.log1p (Ideal.exp (-(max x (-x))))

/-- The new cell state. -/
def cNext (x hd c : Act) (W : Wt) (b : Bias) : Act := fun j =>
  cellNext (gatePre x hd W b 2 j) (gatePre x hd W b 0 j) (gatePre x hd W b 4 j) (c j)
/-- The new target cell state: the target gates, the same candidate. -/
def cTargetNext (x hd ct : Act) (W : Wt) (b : Bias) : Act := fun j =>
  cellNext (gatePre x hd W b 3 j) (gatePre x hd W b 1 j) (gatePre x hd W b 4 j) (ct j)
/-- The output gate. -/
def gateOut (x hd : Act) (W : Wt) (b : Bias) : Act := fun j => Ideal.logistic (gatePre x hd W b 5 j)
/-- The step size. -/
def stepSize (x hd : Act) (W : Wt) (b : Bias) : Act := fun j => softplus (gatePre x hd W b 6 j)

/-! ## The two laws -/

/-- A sum over the 2048 joined columns is the sum over the first 1024 plus the sum over the last 1024. -/
theorem sum_joined (f : Fin 2048 → EReal) :
    ∑ k : Fin 2048, f k = ∑ k : Fin 1024, f (inRow k) + ∑ k : Fin 1024, f (hidRow k) :=
  Fin.sum_univ_add (a := 1024) (b := 1024) f

/-- The guard of the softplus compares a value with itself, so it is never taken: ordered or unordered, "not equal" of
    `a` and `a` is the zero bit. -/
theorem guard_self (p : CmpFPredicate) (hp : p = .one ∨ p = .une) (a : EReal) : Ideal.cmp p a a = 0#1 := by
  rcases hp with rfl | rfl <;> simp [Ideal.cmp]

/-- The softplus as the kernel's body spells it (`0 - |x - 0|` under the exponential). -/
theorem softplus_kernel_form (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32) + Ideal.log1p (Ideal.exp (Ideal.ofBits .f32 0x00000000#32
          - max (x - Ideal.ofBits .f32 0x00000000#32) (-(x - Ideal.ofBits .f32 0x00000000#32)))))
      = softplus x := by
  rw [guard_self .one (.inl rfl), Ideal.ofBits_zero_f32, sub_zero, zero_sub]
  rfl

/-- The softplus as the reference spells it (`-|x - 0|` under the exponential). -/
theorem softplus_reference_form (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32) + Ideal.log1p (Ideal.exp
          (-(max (x - Ideal.ofBits .f32 0x00000000#32) (-(x - Ideal.ofBits .f32 0x00000000#32))))))
      = softplus x := by
  rw [guard_self .une (.inr rfl), Ideal.ofBits_zero_f32, sub_zero]
  rfl

/-! ## The logistic function as the reference spells it -/

/-- The word of `1.0` denotes the real `1`. -/
theorem one_word : Ideal.ofBits .f32 0x3F800000#32 = 1 := by
  simp [Ideal.ofBits, Ideal.ieee, -EReal.coe_mul]; norm_num

/-- `1 / (1 + exp (-p))` in the host's operations, the quotient included, is the logistic function on every extended
    real: that is its definition, with `-∞ ↦ 0` and `+∞ ↦ 1` coming out of the quotient's and the exponential's own
    conventions. -/
theorem logistic_spelled (p : EReal) :
    FloatOps.hostDivf (F := Ideal) (φ := .f32) (FloatOps.ofBits .f32 0x3F800000#32)
        (FloatOps.addf (FloatOps.ofBits .f32 0x3F800000#32) (FloatOps.hostUnary .exp (FloatOps.hostNegf p)))
      = Ideal.logistic p := by
  show Ideal.div (Ideal.ofBits .f32 0x3F800000#32) (Ideal.ofBits .f32 0x3F800000#32 + Ideal.exp (-p)) = _
  rw [one_word]
  rfl

end Cert.GateSpec

end
-- ==== Proof.RefGates.lean ====
/-
  The reference program computes the specification (`GateSpec`), index by index.

  Its one matrix product runs over the 2048 columns of the joined row `[input | hidden]`; read at a column of the first
  half the joined row is `input`, at a column of the second half it is `hidden`, so the product is the sum of the two
  half-sums. The seven gates are seven consecutive 1024-column slices of the biased product; each logistic function is
  spelled `1 / (1 + exp (-p))`; the step size is the softplus with its never-taken guard.
-/
import proofs.«403266_j15633680957681_3_alg».proof.Proof.Gen.ReferenceIdeal.Read
import proofs.«403266_j15633680957681_3_alg».proof.Proof.GateSpec

noncomputable section

open scoped BigOperators

namespace Cert.RefGates

open Idealize.ShloMosaic Idealize.ShloMosaic.ValueIdx Cert.ReferenceIdeal Cert.ReferenceIdeal.Gen Cert.ReferenceIdeal.Read
  Cert.GateSpec

variable (x0 x1 x2 x3 : (⟨S8192x1024, .f32⟩ : BufTy).Contents (Elt Ideal))
  (x4 : (⟨S2048x7168, .f32⟩ : BufTy).Contents (Elt Ideal)) (x5 : (⟨S7168, .f32⟩ : BufTy).Contents (Elt Ideal))

/-! ## The biased product at an index -/

/-- The joined row at a column of its first half is the input's row. -/
theorem joined_in (j : S8192x7168.Idx) (k : Fin 1024) :
    val_main_v0 (F := Ideal) x0 x1 (lidx_main_v1 j (inRow k)) = x0 (ix2 (j 0) k) := by
  unfold val_main_v0
  exact concatenate_pair_apply_left (1 : Fin S8192x2048.rank) x0 x1 concatenates_S8192x1024_S8192x1024_S8192x2048_d1
    (lidx_main_v1 j (inRow k)) rfl (ix2 (j 0) k) (fun b => match b with | ⟨0, _⟩ => rfl | ⟨1, _⟩ => rfl)

/-- The joined row at a column of its second half is the hidden state's row. -/
theorem joined_hid (j : S8192x7168.Idx) (k : Fin 1024) :
    val_main_v0 (F := Ideal) x0 x1 (lidx_main_v1 j (hidRow k)) = x1 (ix2 (j 0) k) := by
  unfold val_main_v0
  exact concatenate_pair_apply_right (1 : Fin S8192x2048.rank) x0 x1 concatenates_S8192x1024_S8192x1024_S8192x2048_d1
    (lidx_main_v1 j (hidRow k)) rfl rfl (ix2 (j 0) k)
    (fun b hb => match b, hb with | ⟨0, _⟩, _ => rfl | ⟨1, _⟩, hb => absurd rfl hb)
    (by show k.val + 1024 = 1024 + k.val; omega)

/-- The weight's entry the product meets at joined column `k`. -/
theorem weight_idx (j : S8192x7168.Idx) (k : Fin 2048) : ridx_main_v1 j k = ix2 k (j 1) :=
  funext fun a => match a with | ⟨0, _⟩ => rfl | ⟨1, _⟩ => rfl

/-- The bias entry the two broadcasts bring to column `j 1`. -/
theorem bias_idx (j : S8192x7168.Idx) : idx_main_v2 (idx_main_v3 j) = ix1 (j 1) :=
  funext fun a => match a with | ⟨0, _⟩ => rfl

/-- The biased product at `(i, col)` is the specification's pre-activation. -/
theorem preact_at (j : S8192x7168.Idx) :
    val_main_v4 (F := Ideal) x0 x1 x4 x5 j = pre x0 x1 x4 x5 (j 0) (j 1) := by
  rw [val_main_v4_apply, val_main_v1_apply, val_main_v3_apply, val_main_v2_apply, sum_joined]
  simp only [joined_in, joined_hid, weight_idx, bias_idx]
  rfl

/-! ## The seven slices: gate `g` reads columns `g * 1024 ..< (g + 1) * 1024` -/

theorem slice_0 (i : S8192x1024.Idx) : val_main_v5 (F := Ideal) x0 x1 x4 x5 i = gatePre x0 x1 x4 x5 0 i := by
  rw [val_main_v5_apply, preact_at]
  exact congrArg (pre x0 x1 x4 x5 (i 0)) (Fin.ext (by show (i 1).val = 0 * 1024 + (i 1).val; omega))

theorem slice_1 (i : S8192x1024.Idx) : val_main_v6 (F := Ideal) x0 x1 x4 x5 i = gatePre x0 x1 x4 x5 1 i := by
  rw [val_main_v6_apply, preact_at]
  exact congrArg (pre x0 x1 x4 x5 (i 0)) (Fin.ext (by show 1024 + (i 1).val = 1 * 1024 + (i 1).val; omega))

theorem slice_2 (i : S8192x1024.Idx) : val_main_v7 (F := Ideal) x0 x1 x4 x5 i = gatePre x0 x1 x4 x5 2 i := by
  rw [val_main_v7_apply, preact_at]
  exact congrArg (pre x0 x1 x4 x5 (i 0)) (Fin.ext (by show 2048 + (i 1).val = 2 * 1024 + (i 1).val; omega))

theorem slice_3 (i : S8192x1024.Idx) : val_main_v8 (F := Ideal) x0 x1 x4 x5 i = gatePre x0 x1 x4 x5 3 i := by
  rw [val_main_v8_apply, preact_at]
  exact congrArg (pre x0 x1 x4 x5 (i 0)) (Fin.ext (by show 3072 + (i 1).val = 3 * 1024 + (i 1).val; omega))

theorem slice_4 (i : S8192x1024.Idx) : val_main_v9 (F := Ideal) x0 x1 x4 x5 i = gatePre x0 x1 x4 x5 4 i := by
  rw [val_main_v9_apply, preact_at]
  exact congrArg (pre x0 x1 x4 x5 (i 0)) (Fin.ext (by show 4096 + (i 1).val = 4 * 1024 + (i 1).val; omega))

theorem slice_5 (i : S8192x1024.Idx) : val_main_v10 (F := Ideal) x0 x1 x4 x5 i = gatePre x0 x1 x4 x5 5 i := by
  rw [val_main_v10_apply, preact_at]
  exact congrArg (pre x0 x1 x4 x5 (i 0)) (Fin.ext (by show 5120 + (i 1).val = 5 * 1024 + (i 1).val; omega))

theorem slice_6 (i : S8192x1024.Idx) : val_main_v11 (F := Ideal) x0 x1 x4 x5 i = gatePre x0 x1 x4 x5 6 i := by
  rw [val_main_v11_apply, preact_at]
  exact congrArg (pre x0 x1 x4 x5 (i 0)) (Fin.ext (by show 6144 + (i 1).val = 6 * 1024 + (i 1).val; omega))

/-! ## The gates: each is the logistic function of its slice -/

/-- The input gate. -/
theorem input_gate (i : S8192x1024.Idx) :
    val_main_v17 (F := Ideal) x0 x1 x4 x5 i = Ideal.logistic (gatePre x0 x1 x4 x5 0 i) := by
  rw [val_main_v17_apply, val_main_v16_apply, val_main_cst_0_apply, val_main_v15_apply, val_main_v14_apply,
    val_main_cst_apply, val_main_v13_apply, val_main_v12_apply, slice_0]
  exact logistic_spelled _

/-- The input gate of the target cell. -/
theorem input_target_gate (i : S8192x1024.Idx) :
    val_main_v23 (F := Ideal) x0 x1 x4 x5 i = Ideal.logistic (gatePre x0 x1 x4 x5 1 i) := by
  rw [val_main_v23_apply, val_main_v22_apply, val_main_cst_2_apply, val_main_v21_apply, val_main_v20_apply,
    val_main_cst_1_apply, val_main_v19_apply, val_main_v18_apply, slice_1]
  exact logistic_spelled _

/-- The forget gate. -/
theorem forget_gate (i : S8192x1024.Idx) :
    val_main_v29 (F := Ideal) x0 x1 x4 x5 i = Ideal.logistic (gatePre x0 x1 x4 x5 2 i) := by
  rw [val_main_v29_apply, val_main_v28_apply, val_main_cst_4_apply, val_main_v27_apply, val_main_v26_apply,
    val_main_cst_3_apply, val_main_v25_apply, val_main_v24_apply, slice_2]
  exact logistic_spelled _

/-- The forget gate of the target cell. -/
theorem forget_target_gate (i : S8192x1024.Idx) :
    val_main_v35 (F := Ideal) x0 x1 x4 x5 i = Ideal.logistic (gatePre x0 x1 x4 x5 3 i) := by
  rw [val_main_v35_apply, val_main_v34_apply, val_main_cst_6_apply, val_main_v33_apply, val_main_v32_apply,
    val_main_cst_5_apply, val_main_v31_apply, val_main_v30_apply, slice_3]
  exact logistic_spelled _

/-- The output gate. -/
theorem output_gate (i : S8192x1024.Idx) :
    val_main_v41 (F := Ideal) x0 x1 x4 x5 i = Ideal.logistic (gatePre x0 x1 x4 x5 5 i) := by
  rw [val_main_v41_apply, val_main_v40_apply, val_main_cst_8_apply, val_main_v39_apply, val_main_v38_apply,
    val_main_cst_7_apply, val_main_v37_apply, val_main_v36_apply, slice_5]
  exact logistic_spelled _

/-- The logistic function under the candidate. -/
theorem candidate_gate (i : S8192x1024.Idx) :
    val_main_v47 (F := Ideal) x0 x1 x4 x5 i = Ideal.logistic (gatePre x0 x1 x4 x5 4 i) := by
  rw [val_main_v47_apply, val_main_v46_apply, val_main_cst_10_apply, val_main_v45_apply, val_main_v44_apply,
    val_main_cst_9_apply, val_main_v43_apply, val_main_v42_apply, slice_4]
  exact logistic_spelled _

/-- The candidate value `2 * σ(p_z) - 1`. -/
theorem candidate_at (i : S8192x1024.Idx) :
    val_main_v51 (F := Ideal) x0 x1 x4 x5 i = squash (gatePre x0 x1 x4 x5 4 i) := by
  rw [val_main_v51_apply, val_main_v49_apply, val_main_v48_apply, val_main_cst_11_apply, val_main_v50_apply,
    val_main_cst_12_apply, candidate_gate]
  rfl

/-! ## The four results -/

/-- The new cell state. -/
theorem cNext_ref : val_main_v54 (F := Ideal) x0 x1 x2 x4 x5 = cNext x0 x1 x2 x4 x5 := by
  funext i
  rw [val_main_v54_apply, val_main_v52_apply, val_main_v53_apply, forget_gate, input_gate, candidate_at]
  rfl

/-- The new target cell state. -/
theorem cTargetNext_ref : val_main_v57 (F := Ideal) x0 x1 x3 x4 x5 = cTargetNext x0 x1 x3 x4 x5 := by
  funext i
  rw [val_main_v57_apply, val_main_v55_apply, val_main_v56_apply, forget_target_gate, input_target_gate, candidate_at]
  rfl

/-- The output gate's array. -/
theorem gateOut_ref : val_main_v41 (F := Ideal) x0 x1 x4 x5 = gateOut x0 x1 x4 x5 := by
  funext i
  exact output_gate x0 x1 x4 x5 i

/-- The step size: the softplus of the last slice, its guard never taken. -/
theorem stepSize_ref : val_main_v58 (F := Ideal) x0 x1 x4 x5 = stepSize x0 x1 x4 x5 := by
  funext i
  rw [val_main_v58_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, slice_6]
  exact softplus_reference_form _

end Cert.RefGates

end
-- ==== Proof.KernelPreact.lean ====
/-
  The kernel body's pre-activation block, read at an index.

  At a grid point the body holds a 512-row block of the input and of the hidden state, the weight block of the point's
  hidden tile (2048 rows of 7 * 256 columns, loaded as its first 1024 rows and its last 1024 rows) and that tile's bias
  row. It forms `(x · W_top + h · W_bot) + bias`: two products into a zero accumulator, their sum, the bias row broadcast
  down the 512 rows. At row `r` and column `q` of the block that is the sum over the 1024 input features plus the sum
  over the 1024 hidden features plus the bias entry of column `q`: over the extended reals a product into a zero
  accumulator is exactly its sum, and the shape casts only drop unit axes.
-/
import proofs.«403266_j15633680957681_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelPreact

open Idealize.ShloMosaic Idealize.ShloMosaic.ValueIdx Cert.KernelIdeal Cert.KernelIdeal.Gen

/-! ## One product at an index -/

/-- The left operand is read at the result's row. -/
theorem lhs_row (i : S512x1792.Idx) (q : dot_S512x1024_S1024x1792_S512x1792_1_0_0_1_n_n.contr.Idx) :
    (dot_S512x1024_S1024x1792_S512x1792_1_0_0_1_n_n.lhsIdx i q 0).val = (i 0).val := by
  unfold DotDims.lhsIdx
  rw [dif_neg (show ¬(0 : Fin S512x1024.rank) ∈ dot_S512x1024_S1024x1792_S512x1792_1_0_0_1_n_n.lhsBatch by decide), dif_pos (show (0 : Fin S512x1024.rank) ∈ dot_S512x1024_S1024x1792_S512x1792_1_0_0_1_n_n.lhsNonContracting by decide)]
  rfl
/-- The left operand's column is the contracted feature. -/
theorem lhs_feature (i : S512x1792.Idx) (q : dot_S512x1024_S1024x1792_S512x1792_1_0_0_1_n_n.contr.Idx) :
    (dot_S512x1024_S1024x1792_S512x1792_1_0_0_1_n_n.lhsIdx i q 1).val = (q ⟨0, by decide⟩).val :=
  dot_S512x1024_S1024x1792_S512x1792_1_0_0_1_n_n.lhsIdx_val_of_single rfl i q
/-- The right operand's row is the contracted feature. -/
theorem rhs_feature (i : S512x1792.Idx) (q : dot_S512x1024_S1024x1792_S512x1792_1_0_0_1_n_n.contr.Idx) :
    (dot_S512x1024_S1024x1792_S512x1792_1_0_0_1_n_n.rhsIdx i q 0).val = (q ⟨0, by decide⟩).val :=
  dot_S512x1024_S1024x1792_S512x1792_1_0_0_1_n_n.rhsIdx_val_of_single rfl i q
/-- The right operand is read at the result's column. -/
theorem rhs_col (i : S512x1792.Idx) (q : dot_S512x1024_S1024x1792_S512x1792_1_0_0_1_n_n.contr.Idx) :
    (dot_S512x1024_S1024x1792_S512x1792_1_0_0_1_n_n.rhsIdx i q 1).val = (i 1).val := by
  unfold DotDims.rhsIdx
  rw [dif_neg (show ¬(1 : Fin S1024x1792.rank) ∈ dot_S512x1024_S1024x1792_S512x1792_1_0_0_1_n_n.rhsBatch by decide), dif_pos (show (1 : Fin S1024x1792.rank) ∈ dot_S512x1024_S1024x1792_S512x1792_1_0_0_1_n_n.rhsNonContracting by decide)]
  rfl

/-- A 512 x 1024 block times a 1024 x 1792 block into the zero accumulator, at row `r` and column `q`: the sum over the
    1024 features of the products. -/
theorem product_at (A : FVec Ideal S512x1024 .bf16) (B : FVec Ideal S1024x1792 .bf16) (r : Fin 512) (q : Fin 1792) :
    matmul dot_S512x1024_S1024x1792_S512x1792_1_0_0_1_n_n none A B (constant (F := Ideal) S512x1792 .f32 0x00000000#32) (ix2 r q)
      = ∑ k : Fin 1024, A (ix2 r k) * B (ix2 k q) := by
  simp only [matmul]
  rw [Ideal.matmul_constant_zero_apply, ← Equiv.sum_comp (ValueIdx.contrEquiv1 dot_S512x1024_S1024x1792_S512x1792_1_0_0_1_n_n 1024 rfl rfl).symm]
  refine Finset.sum_congr rfl fun k _ => ?_
  have hk := ValueIdx.contrEquiv1_symm_val dot_S512x1024_S1024x1792_S512x1792_1_0_0_1_n_n 1024 rfl rfl k
  have el : dot_S512x1024_S1024x1792_S512x1792_1_0_0_1_n_n.lhsIdx (ix2 r q) ((ValueIdx.contrEquiv1 dot_S512x1024_S1024x1792_S512x1792_1_0_0_1_n_n 1024 rfl rfl).symm k) = ix2 r k := funext fun a => Fin.ext (by
    match a with
    | ⟨0, _⟩ => exact lhs_row _ _
    | ⟨1, _⟩ => exact (lhs_feature _ _).trans hk)
  have er : dot_S512x1024_S1024x1792_S512x1792_1_0_0_1_n_n.rhsIdx (ix2 r q) ((ValueIdx.contrEquiv1 dot_S512x1024_S1024x1792_S512x1792_1_0_0_1_n_n 1024 rfl rfl).symm k) = ix2 k q := funext fun a => Fin.ext (by
    match a with
    | ⟨0, _⟩ => exact (rhs_feature _ _).trans hk
    | ⟨1, _⟩ => exact rhs_col _ _)
  rw [el, er]

/-! ## The layout operations at an index -/

/-- A half of the weight block viewed without its leading unit axis. -/
theorem weight_half_at (v : Vec Ideal S1x1024x1792 .bf16) (k : Fin 1024) (q : Fin 1792) :
    shapeCast S1024x1792 v shapeCasts_S1x1024x1792_S1024x1792 (ix2 k q) = v (ix3 (0 : Fin 1) k q) :=
  shapeCast_apply v shapeCasts_S1x1024x1792_S1024x1792 (ix2 k q) (ix3 (0 : Fin 1) k q) (by
    rw [Shape.rowMajor_val_three, Shape.rowMajor_val_two]
    show (0 * 1024 + k.val) * 1792 + q.val = k.val * 1792 + q.val
    omega)

/-- The bias row, its two unit axes dropped to one and broadcast down the block's rows. -/
theorem bias_row_at (v : Vec Ideal S1x1x1792 .f32) (r : Fin 512) (q : Fin 1792) :
    broadcastTo S512x1792 (shapeCast S1x1792 v shapeCasts_S1x1x1792_S1x1792) broadcasts_S1x1792_S512x1792 (ix2 r q)
      = v (ix3 (0 : Fin 1) (0 : Fin 1) q) := by
  rw [broadcastTo_apply _ broadcasts_S1x1792_S512x1792 (ix2 r q) (ix2 (0 : Fin 1) q) (fun a => match a with
    | ⟨0, _⟩ => by show 0 = if (1 : Nat) = 1 then 0 else r.val; rw [if_pos rfl]
    | ⟨1, _⟩ => by show q.val = if (1792 : Nat) = 1 then 0 else q.val; rw [if_neg (by decide)])]
  exact shapeCast_apply v shapeCasts_S1x1x1792_S1x1792 (ix2 (0 : Fin 1) q) (ix3 (0 : Fin 1) (0 : Fin 1) q) (by
    rw [Shape.rowMajor_val_three, Shape.rowMajor_val_two]
    show (0 * 1 + 0) * 1792 + q.val = 0 * 1792 + q.val
    omega)

/-! ## The pre-activation block -/

/-- The body's pre-activation at row `r`, column `q` of the block: input-half sum plus hidden-half sum plus bias. -/
theorem preact_block_at (P0 P1 : Vec Ideal S512x1024 .bf16) (P2 P3 : Vec Ideal S1x1024x1792 .bf16)
    (P4 : Vec Ideal S1x1x1792 .f32) (r : Fin 512) (q : Fin 1792) :
    k0_pay4 (F := Ideal) P0 P1 P2 P3 P4 (ix2 r q)
      = (∑ k : Fin 1024, P0 (ix2 r k) * P2 (ix3 (0 : Fin 1) k q) + ∑ k : Fin 1024, P1 (ix2 r k) * P3 (ix3 (0 : Fin 1) k q))
        + P4 (ix3 (0 : Fin 1) (0 : Fin 1) q) := by
  simp only [k0_pay4]
  show (matmul dot_S512x1024_S1024x1792_S512x1792_1_0_0_1_n_n none (shapeCast S512x1024 P0 shapeCasts_S512x1024_S512x1024)
        (shapeCast S1024x1792 P2 shapeCasts_S1x1024x1792_S1024x1792) (constant (F := Ideal) S512x1792 .f32 0x00000000#32) (ix2 r q)
      + matmul dot_S512x1024_S1024x1792_S512x1792_1_0_0_1_n_n none (shapeCast S512x1024 P1 shapeCasts_S512x1024_S512x1024)
        (shapeCast S1024x1792 P3 shapeCasts_S1x1024x1792_S1024x1792) (constant (F := Ideal) S512x1792 .f32 0x00000000#32) (ix2 r q))
      + broadcastTo S512x1792 (shapeCast S1x1792 P4 shapeCasts_S1x1x1792_S1x1792) broadcasts_S1x1792_S512x1792 (ix2 r q) = _
  rw [product_at, product_at, shapeCast_self, shapeCast_self, bias_row_at]
  refine congrArg₂ (· + ·) (congrArg₂ (· + ·) (Finset.sum_congr rfl fun k _ => ?_) (Finset.sum_congr rfl fun k _ => ?_)) rfl
  · rw [weight_half_at]
  · rw [weight_half_at]

end Cert.KernelPreact

end
-- ==== Proof.HostRepack.lean ====
/-
  What the region finds in its staged operands, read at an index.

  Before the launch the program converts the input and the hidden state to a narrower float format (the identity on the
  extended reals) and repacks the weight and the bias so that, for one hidden tile `j`, the seven gates' 256-column
  slabs lie side by side: the weight `[2048, 7 * 1024]` is viewed `[2048, 7, 4, 256]`, its tile axis brought to the
  front, and flattened to `[4, 2048, 7 * 256]`; the bias `[7 * 1024]` likewise to `[4, 1, 7 * 256]`. Following
  row-major positions through the two views and the axis permutation, the entry at tile `j`, row `k`, column
  `g * 256 + t` of the repacked weight is the weight's entry at row `k`, column `g * 1024 + j * 256 + t`: gate `g`'s
  column for hidden unit `j * 256 + t`. The same for the bias.
-/
import proofs.«403266_j15633680957681_3_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.HostRepack

open Idealize.ShloMosaic Idealize.ShloMosaic.TcCoe Idealize.SL.Sem Idealize.ShloMosaic.ValueIdx Cert.KernelIdeal
  Cert.KernelIdeal.Gen Idealize.ShloMosaic.StableHlo

variable (m : (ℓ : Loc nD τ sig) → Buf (Elt Ideal) ℓ)

/-! ## The arrays, each at its literal type -/

/-- The six arguments on device `c`. -/
abbrev argInput (c : Dev nD) : S8192x1024.Idx → EReal := m ((c : Thread nD τ).loc main_arg0)
abbrev argHidden (c : Dev nD) : S8192x1024.Idx → EReal := m ((c : Thread nD τ).loc main_arg1)
abbrev argCell (c : Dev nD) : S8192x1024.Idx → EReal := m ((c : Thread nD τ).loc main_arg2)
abbrev argCellTarget (c : Dev nD) : S8192x1024.Idx → EReal := m ((c : Thread nD τ).loc main_arg3)
abbrev argWeight (c : Dev nD) : S2048x7168.Idx → EReal := m ((c : Thread nD τ).loc main_arg4)
abbrev argBias (c : Dev nD) : S7168.Idx → EReal := m ((c : Thread nD τ).loc main_arg5)

/-- The four operands the program prepares, as the region finds them. -/
abbrev stagedInput (c : Dev nD) : S8192x1024.Idx → EReal := V m c main_v7
abbrev stagedHidden (c : Dev nD) : S8192x1024.Idx → EReal := V m c main_v8
abbrev stagedWeight (c : Dev nD) : S4x2048x1792.Idx → EReal := V m c main_v3
abbrev stagedBias (c : Dev nD) : S4x1x1792.Idx → EReal := V m c main_v6

/-- The staged input is the input: the format change is the identity. -/
theorem input_staged (c : Dev nD) : stagedInput m c = argInput m c := by
  show V m c main_v7 = _
  dsimp only [Gen.V, Gen.hostOps0]
  after_results
  rfl

/-- The staged hidden state is the hidden state. -/
theorem hidden_staged (c : Dev nD) : stagedHidden m c = argHidden m c := by
  show V m c main_v8 = _
  dsimp only [Gen.V, Gen.hostOps0]
  after_results
  rfl

/-- The cell arrays reach the region untouched. -/
theorem cell_found (c : Dev nD) : (V m c main_arg2 : S8192x1024.Idx → EReal) = argCell m c := V_main_arg2 m c
theorem cell_target_found (c : Dev nD) : (V m c main_arg3 : S8192x1024.Idx → EReal) = argCellTarget m c := V_main_arg3 m c

/-- The staged weight as the chain of views and the axis permutation. -/
theorem weight_staged (c : Dev nD) :
    stagedWeight m c
      = truncf (F := Ideal) .bf16 (shapeCast S4x2048x1792 (transpose S4x2048x7x256 [2, 0, 1, 3]
          (shapeCast S2048x7x4x256 (argWeight m c) shapeCasts_S2048x7168_S2048x7x4x256)
          transposes_S2048x7x4x256_S4x2048x7x256_2_0_1_3) shapeCasts_S4x2048x7x256_S4x2048x1792) bitsLt_bf16_f32 := by
  show V m c main_v3 = _
  dsimp only [Gen.V, Gen.hostOps0]
  after_results
  rfl

/-- The staged bias as the chain of views and the axis permutation. -/
theorem bias_staged (c : Dev nD) :
    stagedBias m c
      = shapeCast S4x1x1792 (transpose S4x7x256 [1, 0, 2]
          (shapeCast S7x4x256 (argBias m c) shapeCasts_S7168_S7x4x256)
          transposes_S7x4x256_S4x7x256_1_0_2) shapeCasts_S4x7x256_S4x1x1792 := by
  show V m c main_v6 = _
  dsimp only [Gen.V, Gen.hostOps0]
  after_results
  rfl

/-- The repacked weight at tile `j`, row `k`, column `col = g * 256 + t` is the weight at row `k`, column
    `wc = g * 1024 + j * 256 + t`. -/
theorem weight_at (c : Dev nD) (j : Fin 4) (k : Fin 2048) (g : Fin 7) (t : Fin 256) (col : Fin 1792)
    (hc : col.val = g.val * 256 + t.val) (wc : Fin 7168) (hw : wc.val = g.val * 1024 + j.val * 256 + t.val) :
    stagedWeight m c (ix3 j k col) = argWeight m c (ix2 k wc) := by
  rw [weight_staged]
  refine (ValueIdx.truncf_apply _ bitsLt_bf16_f32 (ix3 j k col)).trans ?_
  refine (shapeCast_apply _ shapeCasts_S4x2048x7x256_S4x2048x1792 (ix3 j k col) (ix4 j k g t) ?_).trans ?_
  · rw [Shape.rowMajor_val_four, Shape.rowMajor_val_three]
    show ((j.val * 2048 + k.val) * 7 + g.val) * 256 + t.val = (j.val * 2048 + k.val) * 1792 + col.val
    omega
  refine (transpose_apply [2, 0, 1, 3] _ transposes_S2048x7x4x256_S4x2048x7x256_2_0_1_3 (ix4 j k g t) (ix4 k g j t)
    (fun b => match b with | ⟨0, _⟩ => rfl | ⟨1, _⟩ => rfl | ⟨2, _⟩ => rfl | ⟨3, _⟩ => rfl)).trans ?_
  refine shapeCast_apply _ shapeCasts_S2048x7168_S2048x7x4x256 (ix4 k g j t) (ix2 k wc) ?_
  rw [Shape.rowMajor_val_two, Shape.rowMajor_val_four]
  show k.val * 7168 + wc.val = ((k.val * 7 + g.val) * 4 + j.val) * 256 + t.val
  omega

/-- The repacked bias at tile `j`, column `col = g * 256 + t` is the bias at `wc = g * 1024 + j * 256 + t`. -/
theorem bias_at (c : Dev nD) (j : Fin 4) (g : Fin 7) (t : Fin 256) (col : Fin 1792)
    (hc : col.val = g.val * 256 + t.val) (wc : Fin 7168) (hw : wc.val = g.val * 1024 + j.val * 256 + t.val) :
    stagedBias m c (ix3 j (0 : Fin 1) col) = argBias m c (ix1 wc) := by
  rw [bias_staged]
  refine (shapeCast_apply _ shapeCasts_S4x7x256_S4x1x1792 (ix3 j (0 : Fin 1) col) (ix3 j g t) ?_).trans ?_
  · rw [Shape.rowMajor_val_three, Shape.rowMajor_val_three]
    show (j.val * 7 + g.val) * 256 + t.val = (j.val * 1 + 0) * 1792 + col.val
    omega
  refine (transpose_apply [1, 0, 2] _ transposes_S7x4x256_S4x7x256_1_0_2 (ix3 j g t) (ix3 g j t)
    (fun b => match b with | ⟨0, _⟩ => rfl | ⟨1, _⟩ => rfl | ⟨2, _⟩ => rfl)).trans ?_
  refine shapeCast_apply _ shapeCasts_S7168_S7x4x256 (ix3 g j t) (ix1 wc) ?_
  rw [Shape.rowMajor_val_one, Shape.rowMajor_val_three]
  show wc.val = (g.val * 4 + j.val) * 256 + t.val
  omega

end Cert.HostRepack

end
-- ==== Proof.BlockReads.lean ====
/-
  What each grid point writes back is a block of the specification's arrays.

  The grid is 4 hidden tiles by 16 batch tiles. At point `t`, with batch tile `i` and hidden tile `j`, the body reads rows
  `i * 512 ..< (i + 1) * 512` of the input and of the hidden state (all 1024 features), the `512 x 256` blocks at `(i, j)`
  of the two cell arrays, the whole repacked weight and bias of tile `j`; it writes the `512 x 256` blocks at `(i, j)` of
  the four results. Row `r`, lane `t` of a block is array entry `(i * 512 + r, j * 256 + t)`. Gate `g` reads lanes
  `g * 256 ..< (g + 1) * 256` of the block's pre-activation, which by the repacking is column `g * 1024 + j * 256 + t` of the
  weight and of the bias: the specification's gate column of hidden unit `j * 256 + t`. So the stored values are the
  specification's functions at that entry.
-/
import proofs.«403266_j15633680957681_3_alg».proof.Proof.Gen.KernelIdeal.Value
import proofs.«403266_j15633680957681_3_alg».proof.Proof.GateSpec
import proofs.«403266_j15633680957681_3_alg».proof.Proof.KernelPreact
import proofs.«403266_j15633680957681_3_alg».proof.Proof.HostRepack

noncomputable section

open scoped BigOperators

namespace Cert.BlockReads

open Idealize.ShloMosaic Idealize.ShloMosaic.TcCoe Idealize.SL.Sem Idealize.ShloMosaic.ValueIdx Cert.KernelIdeal
  Cert.KernelIdeal.Gen Cert.GateSpec Cert.KernelPreact Cert.HostRepack
open Idealize.ShloMosaic.Pipeline (Dat)

variable (m : (ℓ : Loc nD τ sig) → Buf (Elt Ideal) ℓ)

/-! ## The index maps, decided over the 64 grid points -/

/-- Every window's block index in terms of the first result's: the activations follow the batch tile, the cell arrays
    and the results both tiles, the weight and the bias the hidden tile; 16 batch tiles, 4 hidden tiles. -/
theorem tile_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = win0_6.index t (1 : Fin 2)
    ∧ win0_3.index t (0 : Fin 2) = win0_6.index t (0 : Fin 2) ∧ win0_3.index t (1 : Fin 2) = win0_6.index t (1 : Fin 2)
    ∧ win0_4.index t (0 : Fin 3) = win0_6.index t (1 : Fin 2) ∧ win0_4.index t (1 : Fin 3) = 0 ∧ win0_4.index t (2 : Fin 3) = 0
    ∧ win0_5.index t (0 : Fin 3) = win0_6.index t (1 : Fin 2) ∧ win0_5.index t (1 : Fin 3) = 0 ∧ win0_5.index t (2 : Fin 3) = 0
    ∧ win0_7.index t (0 : Fin 2) = win0_6.index t (0 : Fin 2) ∧ win0_7.index t (1 : Fin 2) = win0_6.index t (1 : Fin 2)
    ∧ win0_8.index t (0 : Fin 2) = win0_6.index t (0 : Fin 2) ∧ win0_8.index t (1 : Fin 2) = win0_6.index t (1 : Fin 2)
    ∧ win0_9.index t (0 : Fin 2) = win0_6.index t (0 : Fin 2) ∧ win0_9.index t (1 : Fin 2) = win0_6.index t (1 : Fin 2)
    ∧ win0_6.index t (0 : Fin 2) ≤ 15 ∧ win0_6.index t (1 : Fin 2) ≤ 3 :=
  (by decide +kernel : ∀ t : Fin grid0.N, _)

/-- Array row of block row `r` in batch tile `i`. -/
def rowOf (i : Fin 16) (r : Fin 512) : Fin 8192 := ⟨i.val * 512 + r.val, by have := i.isLt; have := r.isLt; omega⟩
/-- Hidden unit of block lane `t` in hidden tile `j`. -/
def unitOf (j : Fin 4) (t : Fin 256) : Fin 1024 := ⟨j.val * 256 + t.val, by have := j.isLt; have := t.isLt; omega⟩

section Point
variable (c : Dev nD) (t : Fin cfg0.N) (i : Fin 16) (j : Fin 4)
  (hi : win0_6.index t (0 : Fin 2) = i.val) (hj : win0_6.index t (1 : Fin 2) = j.val)
include hi hj

/-! ## The six block reads -/

/-- The input block's row `r`, feature `k`. -/
theorem input_block_at (r : Fin 512) (k : Fin 1024) :
    View.ld (iblk m c 0 t) r0_0 (ix2 r k) = argInput m c (ix2 (rowOf i r) k) := by
  obtain ⟨e0, e1, -⟩ := tile_facts t
  rw [← input_staged]
  show stagedInput m c (((cfg0.win 0).blk t).view.emb (r0_0.idx (ix2 r k))) = _
  refine congrArg (stagedInput m c) (funext fun a => Fin.ext ?_)
  match a with
  | ⟨0, _⟩ => show win0_0.index t (0 : Fin 2) * 512 + 1 * (0 + 1 * r.val) = i.val * 512 + r.val; omega
  | ⟨1, _⟩ => show win0_0.index t (1 : Fin 2) * 1024 + 1 * (0 + 1 * k.val) = k.val; omega

/-- The hidden-state block's row `r`, feature `k`. -/
theorem hidden_block_at (r : Fin 512) (k : Fin 1024) :
    View.ld (iblk m c 1 t) r0_0 (ix2 r k) = argHidden m c (ix2 (rowOf i r) k) := by
  obtain ⟨-, -, e2, e3, -⟩ := tile_facts t
  rw [← hidden_staged]
  show stagedHidden m c (((cfg0.win 1).blk t).view.emb (r0_0.idx (ix2 r k))) = _
  refine congrArg (stagedHidden m c) (funext fun a => Fin.ext ?_)
  match a with
  | ⟨0, _⟩ => show win0_1.index t (0 : Fin 2) * 512 + 1 * (0 + 1 * r.val) = i.val * 512 + r.val; omega
  | ⟨1, _⟩ => show win0_1.index t (1 : Fin 2) * 1024 + 1 * (0 + 1 * k.val) = k.val; omega

/-- The cell block's row `r`, lane `l`. -/
theorem cell_block_at (r : Fin 512) (l : Fin 256) :
    View.ld (iblk m c 2 t) r0_4 (ix2 r l) = argCell m c (ix2 (rowOf i r) (unitOf j l)) := by
  obtain ⟨-, -, -, -, e4, e5, -⟩ := tile_facts t
  rw [← cell_found]
  show (V m c main_arg2 : S8192x1024.Idx → EReal) (((cfg0.win 2).blk t).view.emb (r0_4.idx (ix2 r l))) = _
  refine congrArg (V m c main_arg2 : S8192x1024.Idx → EReal) (funext fun a => Fin.ext ?_)
  match a with
  | ⟨0, _⟩ => show win0_2.index t (0 : Fin 2) * 512 + 1 * (0 + 1 * r.val) = i.val * 512 + r.val; omega
  | ⟨1, _⟩ => show win0_2.index t (1 : Fin 2) * 256 + 1 * (0 + 1 * l.val) = j.val * 256 + l.val; omega

/-- The target cell block's row `r`, lane `l`. -/
theorem cell_target_block_at (r : Fin 512) (l : Fin 256) :
    View.ld (iblk m c 3 t) r0_4 (ix2 r l) = argCellTarget m c (ix2 (rowOf i r) (unitOf j l)) := by
  obtain ⟨-, -, -, -, -, -, e6, e7, -⟩ := tile_facts t
  rw [← cell_target_found]
  show (V m c main_arg3 : S8192x1024.Idx → EReal) (((cfg0.win 3).blk t).view.emb (r0_4.idx (ix2 r l))) = _
  refine congrArg (V m c main_arg3 : S8192x1024.Idx → EReal) (funext fun a => Fin.ext ?_)
  match a with
  | ⟨0, _⟩ => show win0_3.index t (0 : Fin 2) * 512 + 1 * (0 + 1 * r.val) = i.val * 512 + r.val; omega
  | ⟨1, _⟩ => show win0_3.index t (1 : Fin 2) * 256 + 1 * (0 + 1 * l.val) = j.val * 256 + l.val; omega

/-- The first 1024 rows of the tile's weight block, at feature `k` and lane `q = g * 256 + l`: the weight's input-half
    row `k` at gate `g`'s column of hidden unit `j * 256 + l`. -/
theorem weight_top_at (k : Fin 1024) (g : Fin 7) (l : Fin 256) (q : Fin 1792) (hq : q.val = g.val * 256 + l.val) :
    View.ld (iblk m c 4 t) r0_1 (ix3 (0 : Fin 1) k q) = argWeight m c (ix2 (inRow k) (gateCol g (unitOf j l))) := by
  obtain ⟨-, -, -, -, -, -, -, -, e8, e9, e10, -⟩ := tile_facts t
  rw [← weight_at m c j (inRow k) g l q hq (gateCol g (unitOf j l))
    (by show g.val * 1024 + (j.val * 256 + l.val) = g.val * 1024 + j.val * 256 + l.val; omega)]
  show stagedWeight m c (((cfg0.win 4).blk t).view.emb (r0_1.idx (ix3 (0 : Fin 1) k q))) = _
  refine congrArg (stagedWeight m c) (funext fun a => Fin.ext ?_)
  match a with
  | ⟨0, _⟩ => show win0_4.index t (0 : Fin 3) * 1 + 1 * (0 + 1 * 0) = j.val; omega
  | ⟨1, _⟩ => show win0_4.index t (1 : Fin 3) * 2048 + 1 * (0 + 1 * k.val) = k.val; omega
  | ⟨2, _⟩ => show win0_4.index t (2 : Fin 3) * 1792 + 1 * (0 + 1 * q.val) = q.val; omega

/-- The last 1024 rows of the tile's weight block: the weight's hidden-half row `1024 + k`. -/
theorem weight_bottom_at (k : Fin 1024) (g : Fin 7) (l : Fin 256) (q : Fin 1792) (hq : q.val = g.val * 256 + l.val) :
    View.ld (iblk m c 4 t) r0_2 (ix3 (0 : Fin 1) k q) = argWeight m c (ix2 (hidRow k) (gateCol g (unitOf j l))) := by
  obtain ⟨-, -, -, -, -, -, -, -, e8, e9, e10, -⟩ := tile_facts t
  rw [← weight_at m c j (hidRow k) g l q hq (gateCol g (unitOf j l))
    (by show g.val * 1024 + (j.val * 256 + l.val) = g.val * 1024 + j.val * 256 + l.val; omega)]
  show stagedWeight m c (((cfg0.win 4).blk t).view.emb (r0_2.idx (ix3 (0 : Fin 1) k q))) = _
  refine congrArg (stagedWeight m c) (funext fun a => Fin.ext ?_)
  match a with
  | ⟨0, _⟩ => show win0_4.index t (0 : Fin 3) * 1 + 1 * (0 + 1 * 0) = j.val; omega
  | ⟨1, _⟩ => show win0_4.index t (1 : Fin 3) * 2048 + 1 * (1024 + 1 * k.val) = 1024 + k.val; omega
  | ⟨2, _⟩ => show win0_4.index t (2 : Fin 3) * 1792 + 1 * (0 + 1 * q.val) = q.val; omega

/-- The tile's bias row at lane `q = g * 256 + l`. -/
theorem bias_block_at (g : Fin 7) (l : Fin 256) (q : Fin 1792) (hq : q.val = g.val * 256 + l.val) :
    View.ld (iblk m c 5 t) r0_3 (ix3 (0 : Fin 1) (0 : Fin 1) q) = argBias m c (ix1 (gateCol g (unitOf j l))) := by
  obtain ⟨-, -, -, -, -, -, -, -, -, -, -, e11, e12, e13, -⟩ := tile_facts t
  rw [← bias_at m c j g l q hq (gateCol g (unitOf j l))
    (by show g.val * 1024 + (j.val * 256 + l.val) = g.val * 1024 + j.val * 256 + l.val; omega)]
  show stagedBias m c (((cfg0.win 5).blk t).view.emb (r0_3.idx (ix3 (0 : Fin 1) (0 : Fin 1) q))) = _
  refine congrArg (stagedBias m c) (funext fun a => Fin.ext ?_)
  match a with
  | ⟨0, _⟩ => show win0_5.index t (0 : Fin 3) * 1 + 1 * (0 + 1 * 0) = j.val; omega
  | ⟨1, _⟩ => show win0_5.index t (1 : Fin 3) * 1 + 1 * (0 + 1 * 0) = 0; omega
  | ⟨2, _⟩ => show win0_5.index t (2 : Fin 3) * 1792 + 1 * (0 + 1 * q.val) = q.val; omega

/-! ## The pre-activation at a point -/

/-- Row `r`, lane `q = g * 256 + l` of the point's pre-activation block is the specification's pre-activation of
    batch row `i * 512 + r` at gate `g`'s column of hidden unit `j * 256 + l`. -/
theorem preact_point (r : Fin 512) (g : Fin 7) (l : Fin 256) (q : Fin 1792) (hq : q.val = g.val * 256 + l.val) :
    k0_pay4 (F := Ideal) (View.ld (iblk m c 0 t) r0_0) (View.ld (iblk m c 1 t) r0_0) (View.ld (iblk m c 4 t) r0_1)
        (View.ld (iblk m c 4 t) r0_2) (View.ld (iblk m c 5 t) r0_3) (ix2 r q)
      = pre (argInput m c) (argHidden m c) (argWeight m c) (argBias m c) (rowOf i r) (gateCol g (unitOf j l)) := by
  rw [preact_block_at]
  unfold pre
  refine congrArg₂ (· + ·) (congrArg₂ (· + ·) (Finset.sum_congr rfl fun k _ => ?_) (Finset.sum_congr rfl fun k _ => ?_)) ?_
  · rw [input_block_at m c t i j hi hj r k, weight_top_at m c t i j hi hj k g l q hq]
  · rw [hidden_block_at m c t i j hi hj r k, weight_bottom_at m c t i j hi hj k g l q hq]
  · exact bias_block_at m c t i j hi hj g l q hq

/-! ## What each result's block holds at row `r`, lane `l` -/

/-- The new cell state. -/
theorem cNext_point (r : Fin 512) (l : Fin 256) :
    Value.E6 (F := Ideal) (View.ld (iblk m c 0 t) r0_0) (View.ld (iblk m c 1 t) r0_0) (View.ld (iblk m c 4 t) r0_1)
        (View.ld (iblk m c 4 t) r0_2) (View.ld (iblk m c 5 t) r0_3) (View.ld (iblk m c 2 t) r0_4) (ix2 r l)
      = cNext (argInput m c) (argHidden m c) (argCell m c) (argWeight m c) (argBias m c) (ix2 (rowOf i r) (unitOf j l)) := by
  have e0 : Value.ix6_0 (ix2 r l) = ix2 r (⟨l.val + 512, by have := l.isLt; omega⟩ : Fin 1792) :=
    funext fun a => match a with | ⟨0, _⟩ => rfl | ⟨1, _⟩ => rfl
  have e1 : Value.ix6_1 (ix2 r l) = ix2 r l := funext fun a => match a with | ⟨0, _⟩ => rfl | ⟨1, _⟩ => rfl
  have e2 : Value.ix6_2 (ix2 r l) = ix2 r (⟨l.val, by have := l.isLt; omega⟩ : Fin 1792) :=
    funext fun a => match a with | ⟨0, _⟩ => rfl | ⟨1, _⟩ => rfl
  have e3 : Value.ix6_3 (ix2 r l) = ix2 r (⟨l.val + 1024, by have := l.isLt; omega⟩ : Fin 1792) :=
    funext fun a => match a with | ⟨0, _⟩ => rfl | ⟨1, _⟩ => rfl
  dsimp only [Value.E6]
  rw [e0, e1, e2, e3, preact_point m c t i j hi hj r 2 l _ (by show l.val + 512 = 2 * 256 + l.val; omega),
    preact_point m c t i j hi hj r 0 l _ (by show l.val = 0 * 256 + l.val; omega),
    preact_point m c t i j hi hj r 4 l _ (by show l.val + 1024 = 4 * 256 + l.val; omega),
    cell_block_at m c t i j hi hj r l]
  rfl

/-- The new target cell state. -/
theorem cTargetNext_point (r : Fin 512) (l : Fin 256) :
    Value.E7 (F := Ideal) (View.ld (iblk m c 0 t) r0_0) (View.ld (iblk m c 1 t) r0_0) (View.ld (iblk m c 4 t) r0_1)
        (View.ld (iblk m c 4 t) r0_2) (View.ld (iblk m c 5 t) r0_3) (View.ld (iblk m c 3 t) r0_4) (ix2 r l)
      = cTargetNext (argInput m c) (argHidden m c) (argCellTarget m c) (argWeight m c) (argBias m c)
          (ix2 (rowOf i r) (unitOf j l)) := by
  have e0 : Value.ix7_0 (ix2 r l) = ix2 r (⟨l.val + 768, by have := l.isLt; omega⟩ : Fin 1792) :=
    funext fun a => match a with | ⟨0, _⟩ => rfl | ⟨1, _⟩ => rfl
  have e1 : Value.ix7_1 (ix2 r l) = ix2 r l := funext fun a => match a with | ⟨0, _⟩ => rfl | ⟨1, _⟩ => rfl
  have e2 : Value.ix7_2 (ix2 r l) = ix2 r (⟨l.val + 256, by have := l.isLt; omega⟩ : Fin 1792) :=
    funext fun a => match a with | ⟨0, _⟩ => rfl | ⟨1, _⟩ => rfl
  have e3 : Value.ix7_3 (ix2 r l) = ix2 r (⟨l.val + 1024, by have := l.isLt; omega⟩ : Fin 1792) :=
    funext fun a => match a with | ⟨0, _⟩ => rfl | ⟨1, _⟩ => rfl
  dsimp only [Value.E7]
  rw [e0, e1, e2, e3, preact_point m c t i j hi hj r 3 l _ (by show l.val + 768 = 3 * 256 + l.val; omega),
    preact_point m c t i j hi hj r 1 l _ (by show l.val + 256 = 1 * 256 + l.val; omega),
    preact_point m c t i j hi hj r 4 l _ (by show l.val + 1024 = 4 * 256 + l.val; omega),
    cell_target_block_at m c t i j hi hj r l]
  rfl

/-- The output gate. -/
theorem gateOut_point (r : Fin 512) (l : Fin 256) :
    Value.E8 (F := Ideal) (View.ld (iblk m c 0 t) r0_0) (View.ld (iblk m c 1 t) r0_0) (View.ld (iblk m c 4 t) r0_1)
        (View.ld (iblk m c 4 t) r0_2) (View.ld (iblk m c 5 t) r0_3) (ix2 r l)
      = gateOut (argInput m c) (argHidden m c) (argWeight m c) (argBias m c) (ix2 (rowOf i r) (unitOf j l)) := by
  have e0 : Value.ix8_0 (ix2 r l) = ix2 r (⟨l.val + 1280, by have := l.isLt; omega⟩ : Fin 1792) :=
    funext fun a => match a with | ⟨0, _⟩ => rfl | ⟨1, _⟩ => rfl
  dsimp only [Value.E8]
  rw [e0, preact_point m c t i j hi hj r 5 l _ (by show l.val + 1280 = 5 * 256 + l.val; omega)]
  rfl

/-- The step size: the softplus as the body spells it, its guard never taken. -/
theorem stepSize_point (r : Fin 512) (l : Fin 256) :
    Value.E9 (F := Ideal) (View.ld (iblk m c 0 t) r0_0) (View.ld (iblk m c 1 t) r0_0) (View.ld (iblk m c 4 t) r0_1)
        (View.ld (iblk m c 4 t) r0_2) (View.ld (iblk m c 5 t) r0_3) (ix2 r l)
      = stepSize (argInput m c) (argHidden m c) (argWeight m c) (argBias m c) (ix2 (rowOf i r) (unitOf j l)) := by
  have e0 : Value.ix9_0 (ix2 r l) = ix2 r (⟨l.val + 1536, by have := l.isLt; omega⟩ : Fin 1792) :=
    funext fun a => match a with | ⟨0, _⟩ => rfl | ⟨1, _⟩ => rfl
  have e1 : Value.ix9_1 (ix2 r l) = ix2 r (⟨l.val + 1536, by have := l.isLt; omega⟩ : Fin 1792) :=
    funext fun a => match a with | ⟨0, _⟩ => rfl | ⟨1, _⟩ => rfl
  have e2 : Value.ix9_2 (ix2 r l) = ix2 r (⟨l.val + 1536, by have := l.isLt; omega⟩ : Fin 1792) :=
    funext fun a => match a with | ⟨0, _⟩ => rfl | ⟨1, _⟩ => rfl
  have e3 : Value.ix9_3 (ix2 r l) = ix2 r (⟨l.val + 1536, by have := l.isLt; omega⟩ : Fin 1792) :=
    funext fun a => match a with | ⟨0, _⟩ => rfl | ⟨1, _⟩ => rfl
  have e4 : Value.ix9_4 (ix2 r l) = ix2 r (⟨l.val + 1536, by have := l.isLt; omega⟩ : Fin 1792) :=
    funext fun a => match a with | ⟨0, _⟩ => rfl | ⟨1, _⟩ => rfl
  dsimp only [Value.E9]
  rw [e0, e1, e2, e3, e4, preact_point m c t i j hi hj r 6 l _ (by show l.val + 1536 = 6 * 256 + l.val; omega)]
  exact softplus_kernel_form _

end Point

/-! ## What each point writes back -/

/-- Where row `r`, lane `l` of a result block at point `t` sits in its array. -/
theorem tiles_of (t : Fin cfg0.N) : ∃ (i : Fin 16) (j : Fin 4),
    win0_6.index t (0 : Fin 2) = i.val ∧ win0_6.index t (1 : Fin 2) = j.val := by
  obtain ⟨-, -, -, -, -, -, -, -, -, -, -, -, -, -, -, -, -, -, -, -, b0, b1⟩ := tile_facts t
  exact ⟨⟨win0_6.index t (0 : Fin 2), by omega⟩, ⟨win0_6.index t (1 : Fin 2), by omega⟩, rfl, rfl⟩

/-- Point `t` writes back block `t` of the new cell state. -/
theorem flushed_cNext (c : Dev nD) (t : Fin cfg0.N) :
    (dats m 0 c).flushed 6 t = ((cfg0.win 6).blk t).view.read (Elt Ideal)
      (cNext (argInput m c) (argHidden m c) (argCell m c) (argWeight m c) (argBias m c)) := by
  obtain ⟨i, j, hi, hj⟩ := tiles_of t
  rw [Value.flushed6]
  unfold out0_6
  rw [funext (Value.canon6_eq (F := Ideal) _ _ _ _ _ _)]
  funext y
  obtain ⟨r, l, rfl⟩ : ∃ (r : Fin 512) (l : Fin 256), y = ix2 r l := ⟨y 0, y 1, eq_ix2 y⟩
  show Value.E6 (F := Ideal) (View.ld (iblk m c 0 t) r0_0) (View.ld (iblk m c 1 t) r0_0) (View.ld (iblk m c 4 t) r0_1)
      (View.ld (iblk m c 4 t) r0_2) (View.ld (iblk m c 5 t) r0_3) (View.ld (iblk m c 2 t) r0_4) (ix2 r l)
    = cNext (argInput m c) (argHidden m c) (argCell m c) (argWeight m c) (argBias m c) (((cfg0.win 6).blk t).view.emb (ix2 r l))
  rw [cNext_point m c t i j hi hj r l]
  refine congrArg (cNext (argInput m c) (argHidden m c) (argCell m c) (argWeight m c) (argBias m c)) (funext fun a => Fin.ext ?_)
  match a with
  | ⟨0, _⟩ => show i.val * 512 + r.val = win0_6.index t (0 : Fin 2) * 512 + 1 * r.val; omega
  | ⟨1, _⟩ => show j.val * 256 + l.val = win0_6.index t (1 : Fin 2) * 256 + 1 * l.val; omega

/-- Point `t` writes back block `t` of the new target cell state. -/
theorem flushed_cTargetNext (c : Dev nD) (t : Fin cfg0.N) :
    (dats m 0 c).flushed 7 t = ((cfg0.win 7).blk t).view.read (Elt Ideal)
      (cTargetNext (argInput m c) (argHidden m c) (argCellTarget m c) (argWeight m c) (argBias m c)) := by
  obtain ⟨i, j, hi, hj⟩ := tiles_of t
  obtain ⟨-, -, -, -, -, -, -, -, -, -, -, -, -, -, f0, f1, -⟩ := tile_facts t
  rw [Value.flushed7]
  unfold out0_7
  rw [funext (Value.canon7_eq (F := Ideal) _ _ _ _ _ _)]
  funext y
  obtain ⟨r, l, rfl⟩ : ∃ (r : Fin 512) (l : Fin 256), y = ix2 r l := ⟨y 0, y 1, eq_ix2 y⟩
  show Value.E7 (F := Ideal) (View.ld (iblk m c 0 t) r0_0) (View.ld (iblk m c 1 t) r0_0) (View.ld (iblk m c 4 t) r0_1)
      (View.ld (iblk m c 4 t) r0_2) (View.ld (iblk m c 5 t) r0_3) (View.ld (iblk m c 3 t) r0_4) (ix2 r l)
    = cTargetNext (argInput m c) (argHidden m c) (argCellTarget m c) (argWeight m c) (argBias m c) (((cfg0.win 7).blk t).view.emb (ix2 r l))
  rw [cTargetNext_point m c t i j hi hj r l]
  refine congrArg (cTargetNext (argInput m c) (argHidden m c) (argCellTarget m c) (argWeight m c) (argBias m c)) (funext fun a => Fin.ext ?_)
  match a with
  | ⟨0, _⟩ => show i.val * 512 + r.val = win0_7.index t (0 : Fin 2) * 512 + 1 * r.val; omega
  | ⟨1, _⟩ => show j.val * 256 + l.val = win0_7.index t (1 : Fin 2) * 256 + 1 * l.val; omega

/-- Point `t` writes back block `t` of the output gate. -/
theorem flushed_gateOut (c : Dev nD) (t : Fin cfg0.N) :
    (dats m 0 c).flushed 8 t = ((cfg0.win 8).blk t).view.read (Elt Ideal)
      (gateOut (argInput m c) (argHidden m c) (argWeight m c) (argBias m c)) := by
  obtain ⟨i, j, hi, hj⟩ := tiles_of t
  obtain ⟨-, -, -, -, -, -, -, -, -, -, -, -, -, -, -, -, f0, f1, -⟩ := tile_facts t
  rw [Value.flushed8]
  unfold out0_8
  rw [funext (Value.canon8_eq (F := Ideal) _ _ _ _ _)]
  funext y
  obtain ⟨r, l, rfl⟩ : ∃ (r : Fin 512) (l : Fin 256), y = ix2 r l := ⟨y 0, y 1, eq_ix2 y⟩
  show Value.E8 (F := Ideal) (View.ld (iblk m c 0 t) r0_0) (View.ld (iblk m c 1 t) r0_0) (View.ld (iblk m c 4 t) r0_1)
      (View.ld (iblk m c 4 t) r0_2) (View.ld (iblk m c 5 t) r0_3) (ix2 r l)
    = gateOut (argInput m c) (argHidden m c) (argWeight m c) (argBias m c) (((cfg0.win 8).blk t).view.emb (ix2 r l))
  rw [gateOut_point m c t i j hi hj r l]
  refine congrArg (gateOut (argInput m c) (argHidden m c) (argWeight m c) (argBias m c)) (funext fun a => Fin.ext ?_)
  match a with
  | ⟨0, _⟩ => show i.val * 512 + r.val = win0_8.index t (0 : Fin 2) * 512 + 1 * r.val; omega
  | ⟨1, _⟩ => show j.val * 256 + l.val = win0_8.index t (1 : Fin 2) * 256 + 1 * l.val; omega

/-- Point `t` writes back block `t` of the step size. -/
theorem flushed_stepSize (c : Dev nD) (t : Fin cfg0.N) :
    (dats m 0 c).flushed 9 t = ((cfg0.win 9).blk t).view.read (Elt Ideal)
      (stepSize (argInput m c) (argHidden m c) (argWeight m c) (argBias m c)) := by
  obtain ⟨i, j, hi, hj⟩ := tiles_of t
  obtain ⟨-, -, -, -, -, -, -, -, -, -, -, -, -, -, -, -, -, -, f0, f1, -⟩ := tile_facts t
  rw [Value.flushed9]
  unfold out0_9
  rw [funext (Value.canon9_eq (F := Ideal) _ _ _ _ _)]
  funext y
  obtain ⟨r, l, rfl⟩ : ∃ (r : Fin 512) (l : Fin 256), y = ix2 r l := ⟨y 0, y 1, eq_ix2 y⟩
  show Value.E9 (F := Ideal) (View.ld (iblk m c 0 t) r0_0) (View.ld (iblk m c 1 t) r0_0) (View.ld (iblk m c 4 t) r0_1)
      (View.ld (iblk m c 4 t) r0_2) (View.ld (iblk m c 5 t) r0_3) (ix2 r l)
    = stepSize (argInput m c) (argHidden m c) (argWeight m c) (argBias m c) (((cfg0.win 9).blk t).view.emb (ix2 r l))
  rw [stepSize_point m c t i j hi hj r l]
  refine congrArg (stepSize (argInput m c) (argHidden m c) (argWeight m c) (argBias m c)) (funext fun a => Fin.ext ?_)
  match a with
  | ⟨0, _⟩ => show i.val * 512 + r.val = win0_9.index t (0 : Fin 2) * 512 + 1 * r.val; omega
  | ⟨1, _⟩ => show j.val * 256 + l.val = win0_9.index t (1 : Fin 2) * 256 + 1 * l.val; omega

end Cert.BlockReads

end
-- ==== Proof.KernelRun.lean ====
/-
  The kernel's run ends with the four result arrays at the specification's functions of the arguments.

  The 64 grid points write 64 blocks of 512 x 256 into each result, one per pair (batch tile, hidden tile), and every pair
  is some point's: entry `(a, b)` lies in the block of batch tile `a / 512` and hidden tile `b / 256`. Each block is the
  matching block of one whole-array function (`BlockReads`), so the array after the run is that function.
-/
import proofs.«403266_j15633680957681_3_alg».proof.Proof.BlockReads

noncomputable section

namespace Cert.KernelRun

open Idealize.ShloMosaic Idealize.ShloMosaic.TcCoe Idealize.SL.Sem Idealize.ShloMosaic.ValueIdx Cert.KernelIdeal
  Cert.KernelIdeal.Gen Cert.GateSpec Cert.HostRepack Cert.BlockReads
open Idealize.ShloMosaic.Pipeline (Dat)

variable (m : (ℓ : Loc nD τ sig) → Buf (Elt Ideal) ℓ) (ρ : Dev nD → PrngReg)

/-! ## Every pair of tiles is some point's, for each result -/

theorem tiles_onto6 : ∀ (a : Fin 16) (b : Fin 4), ∃ t : Fin cfg0.N, win0_6.index t = ![a.val, b.val] :=
  (by decide +kernel : ∀ (a : Fin 16) (b : Fin 4), ∃ t : Fin grid0.N, win0_6.index t = ![a.val, b.val])
theorem tiles_onto7 : ∀ (a : Fin 16) (b : Fin 4), ∃ t : Fin cfg0.N, win0_7.index t = ![a.val, b.val] :=
  (by decide +kernel : ∀ (a : Fin 16) (b : Fin 4), ∃ t : Fin grid0.N, win0_7.index t = ![a.val, b.val])
theorem tiles_onto8 : ∀ (a : Fin 16) (b : Fin 4), ∃ t : Fin cfg0.N, win0_8.index t = ![a.val, b.val] :=
  (by decide +kernel : ∀ (a : Fin 16) (b : Fin 4), ∃ t : Fin grid0.N, win0_8.index t = ![a.val, b.val])
theorem tiles_onto9 : ∀ (a : Fin 16) (b : Fin 4), ∃ t : Fin cfg0.N, win0_9.index t = ![a.val, b.val] :=
  (by decide +kernel : ∀ (a : Fin 16) (b : Fin 4), ∃ t : Fin grid0.N, win0_9.index t = ![a.val, b.val])

/-! ## An entry is in a point's block iff each coordinate is in the block's range -/

theorem mem_block6 (t : Fin cfg0.N) (i : S8192x1024.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v9_0).slice (win0_6.rect t)).set ↔ _
  rw [View.set_slice_whole, Rect.mem_set_unit]
  exact Iff.rfl
theorem mem_block7 (t : Fin cfg0.N) (i : S8192x1024.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v9_1).slice (win0_7.rect t)).set ↔ _
  rw [View.set_slice_whole, Rect.mem_set_unit]
  exact Iff.rfl
theorem mem_block8 (t : Fin cfg0.N) (i : S8192x1024.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v9_2).slice (win0_8.rect t)).set ↔ _
  rw [View.set_slice_whole, Rect.mem_set_unit]
  exact Iff.rfl
theorem mem_block9 (t : Fin cfg0.N) (i : S8192x1024.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v9_3).slice (win0_9.rect t)).set ↔ _
  rw [View.set_slice_whole, Rect.mem_set_unit]
  exact Iff.rfl

/-! ## The blocks cover each result -/

theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := tiles_onto6 ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  refine ⟨t, flush0_6 t, ?_⟩
  rw [mem_block6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := tiles_onto7 ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  refine ⟨t, flush0_7 t, ?_⟩
  rw [mem_block7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ := tiles_onto8 ⟨(i 0).val / 512, by omega⟩ ⟨(i 1).val / 256, by omega⟩
  have q0 : win0_8.index t (0 : Fin 2) = (i 0).val / 512 := congrFun ht 0
  have q1 : win0_8.index t (1 : Fin 2) = (i 1).val / 256 := congrFun ht 1
  refine ⟨t, flush0_8 t, ?_⟩
  rw [mem_block8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ := tiles_onto9 ⟨(i 0).val / 512, by omega⟩ ⟨(i 1).val / 256, by omega⟩
  have q0 : win0_9.index t (0 : Fin 2) = (i 0).val / 512 := congrFun ht 0
  have q1 : win0_9.index t (1 : Fin 2) = (i 1).val / 256 := congrFun ht 1
  refine ⟨t, flush0_9 t, ?_⟩
  rw [mem_block9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 256 ≤ (i 1).val ∧ (i 1).val < win0_9.index t (1 : Fin 2) * 256 + 256; omega

/-! ## The four arrays after the run -/

theorem final_cNext (c : Dev nD) :
    (dats m 0 c).arrAt 6 cfg0.N = cNext (argInput m c) (argHidden m c) (argCell m c) (argWeight m c) (argBias m c) :=
  (dats m 0 c).arrAt_eq_of_cover 6 _ (fun t _ => flushed_cNext m c t) cover6

theorem final_cTargetNext (c : Dev nD) :
    (dats m 0 c).arrAt 7 cfg0.N
      = cTargetNext (argInput m c) (argHidden m c) (argCellTarget m c) (argWeight m c) (argBias m c) :=
  (dats m 0 c).arrAt_eq_of_cover 7 _ (fun t _ => flushed_cTargetNext m c t) cover7

theorem final_gateOut (c : Dev nD) :
    (dats m 0 c).arrAt 8 cfg0.N = gateOut (argInput m c) (argHidden m c) (argWeight m c) (argBias m c) :=
  (dats m 0 c).arrAt_eq_of_cover 8 _ (fun t _ => flushed_gateOut m c t) cover8

theorem final_stepSize (c : Dev nD) :
    (dats m 0 c).arrAt 9 cfg0.N = stepSize (argInput m c) (argHidden m c) (argWeight m c) (argBias m c) :=
  (dats m 0 c).arrAt_eq_of_cover 9 _ (fun t _ => flushed_stepSize m c t) cover9

/-! ## The run -/

/-- Every weakly fair execution of the idealized kernel's program terminates with the four results at the
    specification's functions of the arguments, and the arguments unchanged. -/
theorem run : θ_run defs (onTc (τ := τ) (main (F := Ideal))) ⟨m, fun _ => 0, ρ⟩ fun r => ∀ c : Dev nD,
      r.2.mem ((c : Thread nD τ).loc main_v9_0) = cNext (argInput m c) (argHidden m c) (argCell m c) (argWeight m c) (argBias m c)
      ∧ r.2.mem ((c : Thread nD τ).loc main_v9_1) = cTargetNext (argInput m c) (argHidden m c) (argCellTarget m c) (argWeight m c) (argBias m c)
      ∧ r.2.mem ((c : Thread nD τ).loc main_v9_2) = gateOut (argInput m c) (argHidden m c) (argWeight m c) (argBias m c)
      ∧ r.2.mem ((c : Thread nD τ).loc main_v9_3) = stepSize (argInput m c) (argHidden m c) (argWeight m c) (argBias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_cNext m c),
      (h c).2.1.trans (final_cTargetNext m c),
      (h c).2.2.1.trans (final_gateOut m c),
      (h c).2.2.2.1.trans (final_stepSize m c),
      (h c).2.2.2.2⟩)
    (Value.run_blocks m ρ)

end Cert.KernelRun

end
-- ==== Proof.lean ====
/-
  A fused seven-gate recurrent cell: the tiled kernel against the plain reference, over the extended reals.

  Both programs compute, for batch row `i` and hidden unit `h` (`Proof/GateSpec.lean`),
      pre_g = Σ_k input i k * W k (g * 1024 + h) + Σ_k hidden i k * W (1024 + k) (g * 1024 + h) + b (g * 1024 + h)
  for the seven gates g = input, input-target, forget, forget-target, candidate, output, step, and from them
      c' = σ(pre_f) * c + σ(pre_i) * (2 * σ(pre_z) - 1),   c_target' likewise with the target gates,
      o = σ(pre_o),   delta = max(pre_d, 0) + log(1 + exp(-|pre_d|)).
  The reference forms one product of the joined row `[input | hidden]` with the whole weight, slices the seven gates out
  and spells the logistic function `1 / (1 + exp(-p))` (`Proof/RefGates.lean`). The kernel repacks the weight and the
  bias so that one hidden tile's seven gate slabs lie side by side (`Proof/HostRepack.lean`), runs a 4 x 16 grid of
  hidden tiles by batch tiles, and at each point forms the pre-activation block as two products plus the bias row
  (`Proof/KernelPreact.lean`) and stores four 512 x 256 blocks (`Proof/BlockReads.lean`), which tile the four results
  (`Proof/KernelRun.lean`). Joining the two needs only that a sum over the 2048 joined columns is the sum of its two
  halves and that `0 - y = -y`; no finiteness of the inputs is used.

  The frames of the kernel at both instances are the generated ones; the reference's frame is its run with the results
  dropped. The idealization rewrote no operation, so there is nothing to preserve.
-/
import proofs.«403266_j15633680957681_3_alg».proof.Defs
import proofs.«403266_j15633680957681_3_alg».proof.Proof.Gen.Kernel
import proofs.«403266_j15633680957681_3_alg».proof.Proof.Gen.Kernel.Frame
import proofs.«403266_j15633680957681_3_alg».proof.Proof.Gen.KernelIdeal
import proofs.«403266_j15633680957681_3_alg».proof.Proof.Gen.KernelIdeal.Frame
import proofs.«403266_j15633680957681_3_alg».proof.Proof.Gen.KernelIdeal.Value
import proofs.«403266_j15633680957681_3_alg».proof.Proof.Gen.ReferenceIdeal
import proofs.«403266_j15633680957681_3_alg».proof.Proof.Gen.ReferenceIdeal.Run
import proofs.«403266_j15633680957681_3_alg».proof.Proof.Gen.ReferenceIdeal.Read
import proofs.«403266_j15633680957681_3_alg».proof.Proof.Gen.Pre_finite_inputs
import proofs.«403266_j15633680957681_3_alg».proof.Proof.RefGates
import proofs.«403266_j15633680957681_3_alg».proof.Proof.KernelRun
import Idealize.ShloMosaic.Adequacy
import Idealize.ShloMosaic.Init

noncomputable section

namespace Cert.Proof

open Idealize.ShloMosaic Idealize.ShloMosaic.TcCoe Idealize.SL.Sem Cert.GateSpec Cert.HostRepack

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization is the program's own text read over the extended reals: no rewrite to account for. -/
theorem preserves : Cert.preserves_Kernel_KernelIdeal := trivial

/-- From arguments that agree, both programs end with the specification's four arrays. -/
theorem algebraic : Cert.algebraic_KernelIdeal_ReferenceIdeal := by
  intro m ρ m' ρ' _ hagree
  refine ⟨fun c => cNext (argInput m c) (argHidden m c) (argCell m c) (argWeight m c) (argBias m c),
    fun c => cTargetNext (argInput m c) (argHidden m c) (argCellTarget m c) (argWeight m c) (argBias m c),
    fun c => gateOut (argInput m c) (argHidden m c) (argWeight m c) (argBias m c),
    fun c => stepSize (argInput m c) (argHidden m c) (argWeight m c) (argBias m c),
    Cert.KernelRun.run m ρ, ?_⟩
  refine (θ_run Cert.ReferenceIdeal.defs _ _).mono (fun _ h c => ⟨?_, ?_, ?_, ?_, (h c).2.2.2.2⟩)
    (Cert.ReferenceIdeal.Value.run (F := Ideal) m' ρ')
  · exact (h c).1.trans (by
      rw [Cert.ReferenceIdeal.Read.val_main_v54_eq, Cert.RefGates.cNext_ref, (hagree c).1, (hagree c).2.1,
        (hagree c).2.2.1, (hagree c).2.2.2.2.1, (hagree c).2.2.2.2.2])
  · exact (h c).2.1.trans (by
      rw [Cert.ReferenceIdeal.Read.val_main_v57_eq, Cert.RefGates.cTargetNext_ref, (hagree c).1, (hagree c).2.1,
        (hagree c).2.2.2.1, (hagree c).2.2.2.2.1, (hagree c).2.2.2.2.2])
  · exact (h c).2.2.1.trans (by
      rw [Cert.ReferenceIdeal.Read.val_main_v41_eq, Cert.RefGates.gateOut_ref, (hagree c).1, (hagree c).2.1,
        (hagree c).2.2.2.2.1, (hagree c).2.2.2.2.2])
  · exact (h c).2.2.2.1.trans (by
      rw [Cert.ReferenceIdeal.Read.val_main_v58_eq, Cert.RefGates.stepSize_ref, (hagree c).1, (hagree c).2.1,
        (hagree c).2.2.2.2.1, (hagree c).2.2.2.2.2])

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
